-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S1600000 32) (main_arg2 : IVec S1600000 32) (main_arg3 : FVec F S1600000 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 26
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Support.lean ====
/-
  The dense projection of the graph convolution, as one function of the node features and the weight:
  entry (r, q) of `support` is the inner product of row r of the features with column q of the weight,
  a sum of 64 products on the extended reals. Both programs compute this array first; everything after
  it (gather of rows by edge column, scaling by the edge value, sum into the edge's row, plus the bias)
  is the same chain of host operations in both.
-/
import Idealize.ShloMosaic.PureOps.Ideal.Laws
import Idealize.ShloMosaic.Lib.ValueIdx

noncomputable section

namespace Cert.GraphConv

open Idealize.ShloMosaic

/-- The features' entry that meets contraction index `k` in the product's entry `i`: row of `i`, column `k`. -/
abbrev featAt {R : Nat} (i : (⟨2, ![R, 64]⟩ : Shape).Idx) (k : Fin 64) : (⟨2, ![R, 64]⟩ : Shape).Idx := fun a => match a with
  | ⟨0, _⟩ => ⟨(i 0).val, (i 0).isLt⟩
  | ⟨1, _⟩ => ⟨k.val, k.isLt⟩

/-- The weight's entry that meets it: row `k`, column of `i`. -/
abbrev weightAt {R : Nat} (i : (⟨2, ![R, 64]⟩ : Shape).Idx) (k : Fin 64) : (⟨2, ![64, 64]⟩ : Shape).Idx := fun a => match a with
  | ⟨0, _⟩ => ⟨k.val, k.isLt⟩
  | ⟨1, _⟩ => ⟨(i 1).val, (i 1).isLt⟩

/-- `support = h · W` over R rows: entry `i` is `∑ k, h[row i, k] · W[k, col i]`. -/
def support {R : Nat} (h : FVec Ideal ⟨2, ![R, 64]⟩ .f32) (w : FVec Ideal ⟨2, ![64, 64]⟩ .f32) : FVec Ideal ⟨2, ![R, 64]⟩ .f32 :=
  fun i => ∑ k : Fin 64, h (featAt i k) * w (weightAt i k)

theorem support_apply {R : Nat} (h : FVec Ideal ⟨2, ![R, 64]⟩ .f32) (w : FVec Ideal ⟨2, ![64, 64]⟩ .f32) (i : (⟨2, ![R, 64]⟩ : Shape).Idx) :
    support h w i = ∑ k : Fin 64, h (featAt i k) * w (weightAt i k) := rfl

end Cert.GraphConv

end
-- ==== Proof.BlockProduct.lean ====
/-
  What the kernel's body stores for one block of 5000 rows: the matrix product of the block of features
  with the whole weight. The two operands are first narrowed to bf16, which at the extended reals changes
  nothing, and the product accumulates into a zero array, so entry (p, q) of the stored block is the sum
  over k of (block row p, column k) times (weight row k, column q).
-/
import proofs.«400827_j47940424958090_3_alg».proof.Proof.Gen.KernelIdeal.Skeleton
import proofs.«400827_j47940424958090_3_alg».proof.Proof.Support

noncomputable section

namespace Cert.KernelIdeal.BlockProduct

open Cert.KernelIdeal Cert.KernelIdeal.Gen Idealize.ShloMosaic Idealize.ShloMosaic.ValueIdx Cert.GraphConv

/-- The left operand's index of the block product: the output's row. -/
theorem lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and the contraction index as its column. -/
theorem lhs_col (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
/-- The right operand's index: the contraction index as its row, -/
theorem rhs_row (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
/-- … and the output's column. -/
theorem rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The stored block is the product of the loaded block with the loaded weight: `support` over 5000 rows. -/
theorem payload_eq_support (x : FVec Ideal S5000x64 .f32) (w : FVec Ideal S64x64 .f32) :
    k0_pay1 (F := Ideal) x w = support x w := by
  funext j
  show matmul dot_S5000x64_S64x64_S5000x64_1_0_0_1_n_n none (truncf .bf16 x bitsLt_bf16_f32) (truncf .bf16 w bitsLt_bf16_f32)
      (constant S5000x64 .f32 0x00000000#32) j = _
  simp only [matmul]
  rw [Ideal.matmul_constant_zero_apply, support_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx j ((contrEquiv1 dot_S5000x64_S64x64_S5000x64_1_0_0_1_n_n 64 rfl rfl).symm k) = featAt j k :=
    funext fun a => Fin.ext (by
      match a with
      | ⟨0, _⟩ => exact lhs_row _ _
      | ⟨1, _⟩ => exact (lhs_col _ _).trans hk)
  have er : dot_S5000x64_S64x64_S5000x64_1_0_0_1_n_n.rhsIdx j ((contrEquiv1 dot_S5000x64_S64x64_S5000x64_1_0_0_1_n_n 64 rfl rfl).symm k) = weightAt j k :=
    funext fun a => Fin.ext (by
      match a with
      | ⟨0, _⟩ => exact (rhs_row _ _).trans hk
      | ⟨1, _⟩ => exact rhs_col _ _)
  rw [truncf_apply, truncf_apply, el, er]

end Cert.KernelIdeal.BlockProduct

end
-- ==== Proof.SupportArray.lean ====
/-
  The array the kernel's one region leaves: `support` of the features and the weight.
  The region runs over 20 points; point t loads rows 5000·t … 5000·t + 4999 of the features and the whole
  weight, and writes back the same rows of the result. A block of `support` depends only on the same rows
  of the features, so what point t writes back is block t of the whole product, and the 20 blocks
  cover all 100000 rows.
-/
import proofs.«400827_j47940424958090_3_alg».proof.Proof.Gen.KernelIdeal.Frame
import proofs.«400827_j47940424958090_3_alg».proof.Proof.BlockProduct
import Idealize.ShloMosaic.Lib.Pipeline.Value

set_option maxRecDepth 16384

noncomputable section

namespace Cert.KernelIdeal.SupportArray

open Cert.KernelIdeal Cert.KernelIdeal.Gen Idealize.ShloMosaic Idealize.ShloMosaic.TcCoe Idealize.SL.Sem
open Cert.GraphConv Cert.KernelIdeal.BlockProduct

variable (m : (ℓ : Loc nD τ sig) → Buf (Elt Ideal) ℓ)

/-- The features and the weight as the region finds them, at their literal types. -/
abbrev feats (c : Dev nD) : FVec Ideal S100000x64 .f32 := V m c main_arg0
abbrev weight (c : Dev nD) : FVec Ideal S64x64 .f32 := V m c main_arg4

theorem origin : (![0, 0] : Fin 2 → Nat) = fun _ => 0 := funext fun a => by fin_cases a <;> rfl

/-- The block indices at the 20 points: the features' window and the result's window are at block t of rows and
    block 0 of columns; the weight's window stays at its one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem written_back (c : Dev nD) (t : Fin cfg0.N) :
    (dats m 0 c).flushed 2 t = ((cfg0.win 2).blk t).view.read (Elt Ideal) (support (V m c main_arg0) (V m c main_arg4)) := by
  show (cfg0.win 2).cut (grid0.coords t) ((dats m 0 c).after 2 t) = _
  rw [after0_2]
  unfold out0_2
  rw [View.canon_unit_zero origin]
  simp only [View.ld_unit_zero (S := S5000x64) origin, View.ld_unit_zero (S := S64x64) origin]
  rw [payload_eq_support]
  obtain ⟨e0, e1, e2, e3, e4, e5⟩ := block_indices t
  funext j
  show support (iblk m c 0 t) (iblk m c 1 t) j = support (V m c main_arg0) (V m c main_arg4) (((cfg0.win 2).blk t).view.emb j)
  rw [support_apply, support_apply]
  refine Finset.sum_congr rfl fun k _ => ?_
  show feats m c (((cfg0.win 0).blk t).view.emb (featAt j k)) * weight m c (((cfg0.win 1).blk t).view.emb (weightAt j k))
    = feats m c (featAt (((cfg0.win 2).blk t).view.emb j) k) * weight m c (weightAt (((cfg0.win 2).blk t).view.emb j) k)
  have hrow : ((cfg0.win 0).blk t).view.emb (featAt j k) = featAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have hcol : ((cfg0.win 1).blk t).view.emb (weightAt j k) = weightAt (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [hrow, hcol]

/-- An index of the result array lies in point t's block iff each coordinate lies in the block's range on its axis. -/
theorem in_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every row is written: row r lies in the block of point r / 5000. -/
theorem every_row_written (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 5000 < cfg0.N := by show _ < grid0.N; rw [N_0]; omega
  obtain ⟨e0, e1, e2, e3, e4, e5⟩ := block_indices ⟨(i 0).val / 5000, ht⟩
  refine ⟨⟨(i 0).val / 5000, ht⟩, flush0_2 _, ?_⟩
  rw [in_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- After the region the result's array holds the whole product of the features and the weight as launched. -/
theorem support_array (c : Dev nD) :
    (dats m 0 c).arrAt 2 cfg0.N = support (m ((c : Thread nD τ).loc main_arg0)) (m ((c : Thread nD τ).loc main_arg4)) :=
  ((dats m 0 c).arrAt_eq_of_cover 2 (support (V m c main_arg0) (V m c main_arg4)) (fun t _ => written_back m c t) every_row_written).trans
    (by rw [V_main_arg0 m c, V_main_arg4 m c])

end Cert.KernelIdeal.SupportArray

end
-- ==== Proof.Aggregate.lean ====
/-
  Everything both programs do after the dense projection, as ONE function of the projection `s` and the other
  arguments: a negative edge column is shifted up by the number of nodes, row `cols[e]` of `s` is gathered for
  each edge e and scaled by `vals[e]`, the scaled rows are summed into row `rows[e]` of a zero array, and the bias
  is added to every row. The two programs apply this same chain, operation for operation, to their projections, so
  the proof only ever needs that the projections are equal: the chain is never opened.
-/
import proofs.«400827_j47940424958090_3_alg».proof.KernelIdeal
import proofs.«400827_j47940424958090_3_alg».proof.Proof.Gen.KernelIdeal
import Idealize.ShloMosaic.PureOps.Ideal

noncomputable section

namespace Cert.KernelIdeal.Aggregate

open Cert.KernelIdeal Cert.KernelIdeal.Facts₀ Idealize.ShloMosaic

/-- gather · scale · segment-sum · add bias, of a projection `s`. -/
def aggregate (s : FVec Ideal S100000x64 .f32) (rows cols : IVec S1600000 32) (vals : FVec Ideal S1600000 .f32)
    (bias : FVec Ideal S64 .f32) : FVec Ideal S100000x64 .f32 :=
  addf (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 rows)
      (mulf (broadcastInDim S1600000x64 ![0, 1] bcast_S1600000x1_S1600000x64_0_1 (broadcastInDim S1600000x1 ![0] bcast_S1600000_S1600000x1_0 vals))
        (Host.gather gather_S100000x64_S1600000x1_S1600000x64_1_0_n_n_0_1_164 s
          (broadcastInDim S1600000x1 ![0] bcast_S1600000_S1600000x1_0
            (select (cmpi .slt cols (broadcastInDim S1600000 ![] bcast_S_S1600000 (constantI S_ 32 0#32)))
              (addi cols (broadcastInDim S1600000 ![] bcast_S_S1600000 (constantI S_ 32 100000#32))) cols)))))
    (broadcastInDim S100000x64 ![0, 1] bcast_S1x64_S100000x64_0_1 (broadcastInDim S1x64 ![1] bcast_S64_S1x64_1 bias))

end Cert.KernelIdeal.Aggregate

end
-- ==== Proof.KernelRun.lean ====
/-
  The idealized kernel's run, with its result named: the region leaves the projection `support h W` in its output
  array, and the host operations after the region apply the shared chain to it.
-/
import proofs.«400827_j47940424958090_3_alg».proof.Proof.SupportArray
import proofs.«400827_j47940424958090_3_alg».proof.Proof.Aggregate
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo
open Cert.GraphConv Cert.KernelIdeal.SupportArray Cert.KernelIdeal.Aggregate

variable (m : (ℓ : Loc nD τ sig) → Buf (Elt Ideal) ℓ) (ρ : Dev nD → PrngReg)

set_option maxHeartbeats 2000000 in
/-- The nineteen operations after the region, from ANY contents `Fv` of the buffers: the result buffer ends at the
    shared chain of what `Fv` holds at the region's output array and at the four other arguments the chain reads. -/
theorem tail_of (Fv : Valuation τ sig (Elt Ideal)) :
    StableHlo.after (hostOps1 (F := Ideal)) Fv (Proc.devRef .tc main_v16)
      = aggregate (Fv (Proc.devRef .tc main_v0)) (Fv (Proc.devRef .tc main_arg1)) (Fv (Proc.devRef .tc main_arg2))
          (Fv (Proc.devRef .tc main_arg3)) (Fv (Proc.devRef .tc main_arg5)) := by
  after_results
  rfl

/-- What the operations after the region leave in the result buffer: the shared chain applied to the region's array. -/
theorem tail_result (c : Dev nD) :
    Pipeline.afterTail₀ cfgs (dats m) 0 (V0 m) [hostOps1] c main_v16
      = aggregate ((dats m 0 c).arrAt 2 cfg0.N) (m ((c : Thread nD τ).loc main_arg1)) (m ((c : Thread nD τ).loc main_arg2))
          (m ((c : Thread nD τ).loc main_arg3)) (m ((c : Thread nD τ).loc main_arg5)) := by
  unfold Pipeline.afterTail₀
  show StableHlo.after hostOps1 _ (Proc.devRef .tc main_v16) = _
  rw [tail_of]
  have e_out : Pipeline.withArrays (cfgs 0).spec c (V0 m c) (fun w => (dats m 0 c).arrAt w (cfgs 0).N) (Proc.devRef .tc main_v0) = (dats m 0 c).arrAt 2 cfg0.N :=
    Pipeline.withArrays_arr spec0 launch0.win.arr_inj c (V0 m c) _ 2
  have e_arg1 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have e_arg2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have e_arg3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  have e_arg5 : Pipeline.withArrays (cfgs 0).spec c (V0 m c) (fun w => (dats m 0 c).arrAt w (cfgs 0).N) (Proc.devRef .tc main_arg5) = m ((c : Thread nD τ).loc main_arg5) :=
    (Pipeline.withArrays_of_ne _ c (V0 m c) _ main_arg5 (by exact (by decide : ∀ w, Pipeline.arrRef spec0 w ≠ main_arg5))).trans (V_main_arg5 m c)
  rw [e_out, e_arg1, e_arg2, e_arg3, e_arg5]

/-- Every weakly fair execution of the idealized kernel ends with its result at the shared chain of the product
    `support h W` of the launch arrays, the arguments unchanged. -/
theorem run : θ_run defs (onTc (τ := τ) (main (F := Ideal))) ⟨m, fun _ => 0, ρ⟩ fun r => ∀ c : Dev nD,
      r.2.mem ((c.tc : Thread nD τ).loc main_v16)
        = aggregate (support (m ((c.tc : Thread nD τ).loc main_arg0)) (m ((c.tc : Thread nD τ).loc main_arg4)))
            (m ((c.tc : Thread nD τ).loc main_arg1)) (m ((c.tc : Thread nD τ).loc main_arg2))
            (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v16 (Pipeline.mem_restRefs_of main_v16 (by decide) (by decide))).trans
        ((tail_result m c).trans (by rw [support_array m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.KernelIdeal.Result

end
-- ==== Proof.RefSide.lean ====
/-
  The idealized reference's run, with its result named in the same terms as the kernel's: its first operation, the
  whole matrix product of the features and the weight, is `support`, and the nineteen operations after it are the
  shared chain.
-/
import proofs.«400827_j47940424958090_3_alg».proof.Proof.Gen.ReferenceIdeal.Run
import proofs.«400827_j47940424958090_3_alg».proof.Proof.Gen.ReferenceIdeal.Read
import proofs.«400827_j47940424958090_3_alg».proof.Proof.Support
import proofs.«400827_j47940424958090_3_alg».proof.Proof.Aggregate

noncomputable section

namespace Cert.ReferenceIdeal.Result

open Cert.ReferenceIdeal Cert.ReferenceIdeal.Gen Idealize.ShloMosaic Idealize.ShloMosaic.TcCoe Idealize.SL.Sem
open Cert.GraphConv Cert.KernelIdeal.Aggregate

/-- The host's matrix product over all 100000 rows, entry by entry, is the sum of 64 products `support` names. -/
theorem product_eq_support (h : FVec Ideal S100000x64 .f32) (w : FVec Ideal S64x64 .f32) :
    Host.dotGeneral (F := Ideal) dot_S100000x64_S64x64_S100000x64_1_0_0_1_n_n none h w = support h w := by
  funext i
  refine (Read.val_main_v0_apply h w i).trans ?_
  rw [support_apply]
  refine Finset.sum_congr rfl fun k _ => ?_
  have el : Read.lidx_main_v0 i k = featAt i k := funext fun a => by
    match a with
    | ⟨0, _⟩ => rfl
    | ⟨1, _⟩ => rfl
  have er : Read.ridx_main_v0 i k = weightAt i k := funext fun a => by
    match a with
    | ⟨0, _⟩ => rfl
    | ⟨1, _⟩ => rfl
  rw [el, er]

/-- The reference's operations after its product are the shared chain: the same operations with the same constants,
    over the same shapes. -/
theorem chain_eq (s : FVec Ideal S100000x64 .f32) (rows cols : IVec S1600000 32) (vals : FVec Ideal S1600000 .f32)
    (bias : FVec Ideal S64 .f32) :
    addf (Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 rows)
        (mulf (broadcastInDim S1600000x64 ![0, 1] bcast_S1600000x1_S1600000x64_0_1 (broadcastInDim S1600000x1 ![0] bcast_S1600000_S1600000x1_0 vals))
          (Host.gather gather_S100000x64_S1600000x1_S1600000x64_1_0_n_n_0_1_164 s
            (broadcastInDim S1600000x1 ![0] bcast_S1600000_S1600000x1_0
              (select (cmpi .slt cols (broadcastInDim S1600000 ![] bcast_S_S1600000 (constantI S_ 32 0#32)))
                (addi cols (broadcastInDim S1600000 ![] bcast_S_S1600000 (constantI S_ 32 100000#32))) cols)))))
      (broadcastInDim S100000x64 ![0, 1] bcast_S1x64_S100000x64_0_1 (broadcastInDim S1x64 ![1] bcast_S64_S1x64_1 bias))
    = aggregate s rows cols vals bias := rfl

/-- Every weakly fair execution of the reference ends with its result at the shared chain of the product
    `support h W` of the launch arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
        = aggregate (support (m ((c.tc : Thread nD τ).loc main_arg0)) (m ((c.tc : Thread nD τ).loc main_arg4)))
            (m ((c.tc : Thread nD τ).loc main_arg1)) (m ((c.tc : Thread nD τ).loc main_arg2))
            (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by rw [product_eq_support]; exact chain_eq _ _ _ _ _), (h c).2⟩)
    (Value.run (F := Ideal) m ρ)

end Cert.ReferenceIdeal.Result

end
-- ==== Proof.lean ====
/-
  A graph convolution: out = segment_sum(vals[:, None] · (h · W)[cols], rows) + bias, over 100000 nodes, 1600000 edges
  and 64 features.

  The kernel computes the dense projection h · W in one region of 20 points, each point the product of a block of 5000
  rows of h (narrowed to bf16, which changes nothing on the extended reals) with the whole of W, accumulated into zero;
  the reference computes it as one matrix product on the host. Entry (r, q) of either is the same sum over k of
  h[r, k] · W[k, q], a sum of 64 products in the same order, so no law of arithmetic is needed and the inputs'
  finiteness is never used: a block of the product depends only on the same rows of h, and the 20 blocks cover every row.

  After the projection both programs apply the same host operations with the same constants (the shift of negative
  columns, the gather, the scaling, the scatter-add into zeros, the bias): that chain is carried as one function of the
  projection and never opened.

  The idealization rewrote nothing, so the kernel's idealization is the kernel read on the extended reals.
-/
import proofs.«400827_j47940424958090_3_alg».proof.Defs
import proofs.«400827_j47940424958090_3_alg».proof.Proof.Gen.Kernel
import proofs.«400827_j47940424958090_3_alg».proof.Proof.Gen.Kernel.Skeleton
import proofs.«400827_j47940424958090_3_alg».proof.Proof.Gen.Kernel.Launch
import proofs.«400827_j47940424958090_3_alg».proof.Proof.Gen.Kernel.Points
import proofs.«400827_j47940424958090_3_alg».proof.Proof.Gen.Kernel.Frame
import proofs.«400827_j47940424958090_3_alg».proof.Proof.Gen.KernelIdeal
import proofs.«400827_j47940424958090_3_alg».proof.Proof.Gen.KernelIdeal.Skeleton
import proofs.«400827_j47940424958090_3_alg».proof.Proof.Gen.KernelIdeal.Launch
import proofs.«400827_j47940424958090_3_alg».proof.Proof.Gen.KernelIdeal.Points
import proofs.«400827_j47940424958090_3_alg».proof.Proof.Gen.KernelIdeal.Frame
import proofs.«400827_j47940424958090_3_alg».proof.Proof.Gen.ReferenceIdeal
import proofs.«400827_j47940424958090_3_alg».proof.Proof.Gen.Pre_finite_inputs
import proofs.«400827_j47940424958090_3_alg».proof.Proof.KernelRun
import proofs.«400827_j47940424958090_3_alg».proof.Proof.RefSide
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: it runs, and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the shared chain of `support h W`: the kernel's 20 blocks are the blocks of the one product
    the reference takes, and the arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Result.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
